-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S256x1024 : Shape := ⟨2, ![256, 1024]⟩
abbrev S256x2048 : Shape := ⟨2, ![256, 2048]⟩
abbrev S1x1024 : Shape := ⟨2, ![1, 1024]⟩

abbrev nBuf : Space → Nat
  | .hbm => 18
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x1024, .bf16⟩
  | .hbm, ⟨12, _⟩ => ⟨S4096x1024, .bf16⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S2048x1024, .bf16⟩
  | .local _ .vmem, ⟨7, _⟩ => ⟨S1024, .f32⟩
  | .local _ .vmem, ⟨8, _⟩ => ⟨S2048x1024, .bf16⟩
  | .local _ .vmem, ⟨9, _⟩ => ⟨S1024, .f32⟩
  | .local _ .vmem, ⟨10, _⟩ => ⟨S2048x1024, .bf16⟩
  | .local _ .vmem, ⟨11, _⟩ => ⟨S1024, .f32⟩
  | .local _ .vmem, ⟨12, _⟩ => ⟨S2048x1024, .bf16⟩
  | .local _ .vmem, ⟨13, _⟩ => ⟨S1024, .f32⟩
  | .local _ .vmem, ⟨14, _⟩ => ⟨S256x1024, .f32⟩
  | .local _ .vmem, ⟨15, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  concatenates_S256x1024_S256x1024_S256x2048_d1 : Shape.Concatenates [S256x1024, S256x1024] S256x2048 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S2048x1024.size a
  hwx0_7 : ∀ i : grid0.Coords, EltTy.bits .bf16 = 32 ∨ (Rect.block (s := S2048x1024) S2048x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x1024.size a ≤ S2048x1024.size a
  hwx0_9 : ∀ i : grid0.Coords, EltTy.bits .bf16 = 32 ∨ (Rect.block (s := S2048x1024) S2048x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S4096x1024.size a
  hwx0_11 : ∀ i : grid0.Coords, EltTy.bits .f32 = 32 ∨ (Rect.block (s := S4096x1024) S256x1024.size (cc0_transform_11 i) (hinb0_11 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S2048x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x2048_S2048x1024_S4096x1024_1_0_0_1_n_n_wf : DotDims.WF S4096x2048 S2048x1024 S4096x1024 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.Cell.lean ====
/-
  One step of an LSTM cell on the extended reals, index by index.

  Row `r` of the input is the 2048 numbers `[x r | h r]`: the 1024 entries of `x`'s row followed by the 1024 of
  `h`'s. For a weight matrix `W` (2048 × 1024) and a bias `b` (1024) the pre-activation of unit `j` on that row is

      lin j = Σ_k [x r | h r] k · W k j + b j .

  With `σ z = 1 / (1 + e^(-z))` the gates are `f = σ (lin_f)`, `i = σ (lin_i)`, `s = σ (lin_s)`, `p = tanh (lin_p)`,
  the new cell state is `c · f + i · p` and the new hidden state, the result, is `tanh (c · f + i · p) · s`.

  Everything is a function of ONE row of `x`, one row of `h` and one entry of `c`, so the value is stated over row
  functions (`cellRow`): the same term then reads a 256-row block of the arrays and the whole 4096-row arrays.
  Also here, because both programs join `x` and `h` along the columns: a two-piece join along axis 1 read at an
  index (`concat_cols_apply`), whatever the number of rows; and the one law between the two spellings of `σ`
  (`logistic_spelt`): the quotient `1 / (1 + exp (-z))` with the float word of `1.0` IS the logistic function, on
  every extended real, infinities included, so no finiteness of the inputs is used anywhere.
-/
import Idealize.ShloMosaic.PureOps.Ideal
import Idealize.ShloMosaic.Lib.ValueIdx
import Idealize.ShloMosaic.Lib.Pipeline.Value
import Idealize.ShloMosaic.Lib.IdealHost

noncomputable section

namespace Cert.LstmCell

open Idealize.ShloMosaic Idealize.ShloMosaic.ValueIdx

/-- Entry `k` of the joined row `[xr | hr]`: `xr k` below 1024, `hr (k - 1024)` from there on. -/
def joinedRow (xr hr : Fin 1024 → EReal) (k : Fin 2048) : EReal :=
  if hk : k.val < 1024 then xr ⟨k.val, hk⟩ else hr ⟨k.val - 1024, by have := k.isLt; omega⟩

/-- The pre-activation of unit `j` on a joined row: the row times column `j` of `W`, plus the bias. -/
def lin (xr hr : Fin 1024 → EReal) (W : (⟨2, ![2048, 1024]⟩ : Shape).Idx → EReal)
    (b : (⟨1, ![1024]⟩ : Shape).Idx → EReal) (j : Fin 1024) : EReal :=
  (∑ k : Fin 2048, joinedRow xr hr k * W (ix2 k j)) + b (ix1 j)

/-- The new hidden state of unit `j` from one row of `x`, one row of `h` and the unit's old cell state `cj`:
    `tanh (cj · f + i · p) · s`. -/
def cellRow (xr hr : Fin 1024 → EReal) (cj : EReal)
    (Wf : (⟨2, ![2048, 1024]⟩ : Shape).Idx → EReal) (bf : (⟨1, ![1024]⟩ : Shape).Idx → EReal)
    (Wi : (⟨2, ![2048, 1024]⟩ : Shape).Idx → EReal) (bi : (⟨1, ![1024]⟩ : Shape).Idx → EReal)
    (Ws : (⟨2, ![2048, 1024]⟩ : Shape).Idx → EReal) (bs : (⟨1, ![1024]⟩ : Shape).Idx → EReal)
    (Wp : (⟨2, ![2048, 1024]⟩ : Shape).Idx → EReal) (bp : (⟨1, ![1024]⟩ : Shape).Idx → EReal) (j : Fin 1024) : EReal :=
  Ideal.tanh (cj * Ideal.logistic (lin xr hr Wf bf j) + Ideal.logistic (lin xr hr Wi bi j) * Ideal.tanh (lin xr hr Wp bp j))
    * Ideal.logistic (lin xr hr Ws bs j)

/-- The whole result array: entry `(r, j)` is `cellRow` of row `r` of `x`, row `r` of `h` and `c (r, j)`. -/
def cell (x h c : (⟨2, ![4096, 1024]⟩ : Shape).Idx → EReal)
    (Wf : (⟨2, ![2048, 1024]⟩ : Shape).Idx → EReal) (bf : (⟨1, ![1024]⟩ : Shape).Idx → EReal)
    (Wi : (⟨2, ![2048, 1024]⟩ : Shape).Idx → EReal) (bi : (⟨1, ![1024]⟩ : Shape).Idx → EReal)
    (Ws : (⟨2, ![2048, 1024]⟩ : Shape).Idx → EReal) (bs : (⟨1, ![1024]⟩ : Shape).Idx → EReal)
    (Wp : (⟨2, ![2048, 1024]⟩ : Shape).Idx → EReal) (bp : (⟨1, ![1024]⟩ : Shape).Idx → EReal) :
    (⟨2, ![4096, 1024]⟩ : Shape).Idx → EReal :=
  fun i => cellRow (fun k => x (ix2 (i 0) k)) (fun k => h (ix2 (i 0) k)) (c i) Wf bf Wi bi Ws bs Wp bp (i 1)

/-- Two arrays of `R` rows and 1024 columns joined along the columns, read at `(r, k)`: the first array's `(r, k)`
    for `k` below 1024, the second's `(r, k - 1024)` from there on. -/
theorem concat_cols_apply {α : Type} (R : Nat) (a b : (⟨2, ![R, 1024]⟩ : Shape).Idx → α)
    (hc : Shape.Concatenates [(⟨2, ![R, 1024]⟩ : Shape), ⟨2, ![R, 1024]⟩] ⟨2, ![R, 2048]⟩ 1) (r : Fin R) (k : Fin 2048) :
    concatenate (⟨2, ![R, 2048]⟩ : Shape) 1 [⟨⟨2, ![R, 1024]⟩, a⟩, ⟨⟨2, ![R, 1024]⟩, b⟩] hc (ix2 r k)
      = if hk : k.val < 1024 then a (ix2 r ⟨k.val, hk⟩) else b (ix2 r ⟨k.val - 1024, by have := k.isLt; omega⟩) := by
  split
  · next hk =>
    exact concatenate_pair_apply_left 1 a b hc (ix2 r k) rfl (ix2 r ⟨k.val, hk⟩)
      (fun d => match d with | ⟨0, _⟩ => rfl | ⟨1, _⟩ => rfl)
  · next hk =>
    exact concatenate_pair_apply_right 1 a b hc (ix2 r k) rfl rfl (ix2 r ⟨k.val - 1024, by have := k.isLt; omega⟩)
      (fun d hd => match d with | ⟨0, _⟩ => rfl | ⟨1, _⟩ => absurd rfl hd)
      (by show k.val - 1024 + 1024 = k.val; omega)

/-- The logistic function spelt as a quotient with the float word of `1.0` in both places. -/
theorem logistic_spelt (z : EReal) :
    Ideal.div (Ideal.ofBits .f32 0x3F800000#32) (Ideal.ofBits .f32 0x3F800000#32 + Ideal.exp (-z)) = Ideal.logistic z := by
  rw [Ideal.ofBits_one_f32]
  rfl

end Cert.LstmCell

end
-- ==== Proof.BlockValue.lean ====
/-
  What the kernel body computes on one block, at one index of the block.

  The body joins its 256-row blocks of `x` and `h` along the columns, multiplies the joined block by each of the four
  whole weight matrices into a zero accumulator, adds the bias row to every row, applies the logistic function to three
  of the sums and the hyperbolic tangent to the fourth, and stores `tanh (c · f + i · p) · s`. On the extended reals a
  matrix product into zero read at `(p, q)` is the plain sum over the 2048 joined columns (`matmul_zero_apply`: the
  sum over the product's own contraction index, re-indexed by its one coordinate), the joined block at `(p, k)` is
  `x`'s or `h`'s entry by the side of 1024 that `k` falls on, and the bias broadcast at `(p, q)` is `b q`. So the stored
  value at `(p, q)` is `cellRow` of row `p` of the `x` block, row `p` of the `h` block and the `c` block's `(p, q)`
  (`payload_apply`). All statements are over variables of the literal block types; nothing here mentions the grid.
-/
import proofs.«130139_j56642028699866_1_alg».proof.Proof.Gen.KernelIdeal.Skeleton
import proofs.«130139_j56642028699866_1_alg».proof.Proof.Cell
import Idealize.ShloMosaic.PureOps.Ideal.Laws
import Idealize.ShloMosaic.Lib.ValueIdx
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.ValueIdx Cert.LstmCell

/-! ## The matrix product's operand indices -/

theorem lhs_dot_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_dot_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_dot_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_dot_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The block's matrix product into the zero accumulator, at `(p, q)`: row `p` of the left operand times column `q`
    of the right, summed over the 2048 contracted positions. -/
theorem matmul_zero_apply (l : FVec Ideal S256x2048 .bf16) (w : FVec Ideal S2048x1024 .bf16) (p : Fin 256) (q : Fin 1024) :
    matmul dot_S256x2048_S2048x1024_S256x1024_1_0_0_1_n_n none l w (constant (F := Ideal) S256x1024 .f32 0x00000000#32) (ix2 p q)
      = ∑ k : Fin 2048, l (ix2 p k) * w (ix2 k q) := by
  simp only [matmul]
  rw [Ideal.matmul_constant_zero_apply, ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 p q) ((ValueIdx.contrEquiv1 dot_S256x2048_S2048x1024_S256x1024_1_0_0_1_n_n 2048 rfl rfl).symm k) = ix2 p k := funext fun a => Fin.ext (by
    match a with
    | ⟨0, _⟩ => exact lhs_dot_0 _ _
    | ⟨1, _⟩ => exact (lhs_dot_1 _ _).trans hk)
  have er : dot_S256x2048_S2048x1024_S256x1024_1_0_0_1_n_n.rhsIdx (ix2 p q) ((ValueIdx.contrEquiv1 dot_S256x2048_S2048x1024_S256x1024_1_0_0_1_n_n 2048 rfl rfl).symm k) = ix2 k q := funext fun a => Fin.ext (by
    match a with
    | ⟨0, _⟩ => exact (rhs_dot_0 _ _).trans hk
    | ⟨1, _⟩ => exact rhs_dot_1 _ _)
  rw [el, er]

/-! ## The pieces of a gate -/

/-- The joined block at `(p, k)`: the `x` block's entry left of column 1024, the `h` block's from there on. -/
theorem joined_apply (x0 x1 : Vec Ideal S256x1024 .bf16) (p : Fin 256) (k : Fin 2048) :
    k0_pay2 x0 x1 (ix2 p k) = joinedRow (fun k => x0 (ix2 p k)) (fun k => x1 (ix2 p k)) k := by
  unfold k0_pay2 joinedRow
  dsimp only
  rw [shapeCast_self, shapeCast_self]
  exact concat_cols_apply 256 x0 x1 concatenates_S256x1024_S256x1024_S256x2048_d1 p k

/-- The bias, laid as one row and repeated down the 256 rows, at `(p, q)` is `b q`. -/
theorem bias_apply (b : Vec Ideal S1024 .f32) (p : Fin 256) (q : Fin 1024) :
    broadcastTo S256x1024 (shapeCast S1x1024 b shapeCasts_S1024_S1x1024) broadcasts_S1x1024_S256x1024 (ix2 p q) = b (ix1 q) := by
  rw [broadcastTo_apply _ broadcasts_S1x1024_S256x1024 (ix2 p q) (ix2 (⟨0, Nat.one_pos⟩ : Fin 1) q) (fun a => match a with
      | ⟨0, _⟩ => by show 0 = if (1 : Nat) = 1 then 0 else p.val; rw [if_pos rfl]
      | ⟨1, _⟩ => by show q.val = if (1024 : Nat) = 1 then 0 else q.val; rw [if_neg (by decide)])]
  exact (shapeCast_addUnit_apply ![1024] b shapeCasts_S1024_S1x1024 (ix2 (⟨0, Nat.one_pos⟩ : Fin 1) q)).trans
    (congrArg b (funext fun a => match a with | ⟨0, _⟩ => rfl))

/-- A gate's pre-activation on the block at `(p, q)`: the joined row `p` times column `q` of the weights, plus `b q`. -/
theorem lin_apply (x0 x1 : Vec Ideal S256x1024 .bf16) (w : Vec Ideal S2048x1024 .bf16) (b : Vec Ideal S1024 .f32)
    (p : Fin 256) (q : Fin 1024) :
    addf (matmul dot_S256x2048_S2048x1024_S256x1024_1_0_0_1_n_n none (k0_pay2 x0 x1) (shapeCast S2048x1024 w shapeCasts_S2048x1024_S2048x1024 : FVec Ideal S2048x1024 .bf16)
        (constant (F := Ideal) S256x1024 .f32 0x00000000#32))
      (broadcastTo S256x1024 (shapeCast S1x1024 b shapeCasts_S1024_S1x1024) broadcasts_S1x1024_S256x1024) (ix2 p q)
      = lin (fun k => x0 (ix2 p k)) (fun k => x1 (ix2 p k)) w b q := by
  show matmul dot_S256x2048_S2048x1024_S256x1024_1_0_0_1_n_n none (k0_pay2 x0 x1) (shapeCast S2048x1024 w shapeCasts_S2048x1024_S2048x1024 : FVec Ideal S2048x1024 .bf16)
        (constant (F := Ideal) S256x1024 .f32 0x00000000#32) (ix2 p q)
      + broadcastTo S256x1024 (shapeCast S1x1024 b shapeCasts_S1024_S1x1024) broadcasts_S1x1024_S256x1024 (ix2 p q) = _
  rw [matmul_zero_apply, bias_apply, shapeCast_self]
  unfold lin
  exact congrArg (· + b (ix1 q)) (Finset.sum_congr rfl fun k _ => by rw [joined_apply])

/-! ## The gates and the stored value -/

theorem forget_apply (x0 x1 : Vec Ideal S256x1024 .bf16) (w : Vec Ideal S2048x1024 .bf16) (b : Vec Ideal S1024 .f32)
    (p : Fin 256) (q : Fin 1024) :
    k0_pay3 x0 x1 w b (ix2 p q) = Ideal.logistic (lin (fun k => x0 (ix2 p k)) (fun k => x1 (ix2 p k)) w b q) := by
  unfold k0_pay3
  exact congrArg Ideal.logistic (lin_apply x0 x1 w b p q)

theorem input_apply (x0 x1 : Vec Ideal S256x1024 .bf16) (w : Vec Ideal S2048x1024 .bf16) (b : Vec Ideal S1024 .f32)
    (p : Fin 256) (q : Fin 1024) :
    k0_pay4 x0 x1 w b (ix2 p q) = Ideal.logistic (lin (fun k => x0 (ix2 p k)) (fun k => x1 (ix2 p k)) w b q) := by
  unfold k0_pay4
  exact congrArg Ideal.logistic (lin_apply x0 x1 w b p q)

theorem select_apply (x0 x1 : Vec Ideal S256x1024 .bf16) (w : Vec Ideal S2048x1024 .bf16) (b : Vec Ideal S1024 .f32)
    (p : Fin 256) (q : Fin 1024) :
    k0_pay5 x0 x1 w b (ix2 p q) = Ideal.logistic (lin (fun k => x0 (ix2 p k)) (fun k => x1 (ix2 p k)) w b q) := by
  unfold k0_pay5
  exact congrArg Ideal.logistic (lin_apply x0 x1 w b p q)

theorem candidate_apply (x0 x1 : Vec Ideal S256x1024 .bf16) (w : Vec Ideal S2048x1024 .bf16) (b : Vec Ideal S1024 .f32)
    (p : Fin 256) (q : Fin 1024) :
    k0_pay6 x0 x1 w b (ix2 p q) = Ideal.tanh (lin (fun k => x0 (ix2 p k)) (fun k => x1 (ix2 p k)) w b q) := by
  unfold k0_pay6
  exact congrArg Ideal.tanh (lin_apply x0 x1 w b p q)

/-- THE STORED VALUE at `(p, q)` of a block: `cellRow` of row `p` of the `x` and `h` blocks and the `c` block's `(p, q)`. -/
theorem payload_apply (x0 x1 : Vec Ideal S256x1024 .bf16) (x2 : Vec Ideal S256x1024 .f32)
    (w3 : Vec Ideal S2048x1024 .bf16) (b4 : Vec Ideal S1024 .f32) (w5 : Vec Ideal S2048x1024 .bf16) (b6 : Vec Ideal S1024 .f32)
    (w7 : Vec Ideal S2048x1024 .bf16) (b8 : Vec Ideal S1024 .f32) (w9 : Vec Ideal S2048x1024 .bf16) (b10 : Vec Ideal S1024 .f32)
    (p : Fin 256) (q : Fin 1024) :
    k0_pay1 (k0_pay3 x0 x1 w3 b4) (k0_pay4 x0 x1 w5 b6) (k0_pay5 x0 x1 w7 b8) (k0_pay6 x0 x1 w9 b10) x2 (ix2 p q)
      = cellRow (fun k => x0 (ix2 p k)) (fun k => x1 (ix2 p k)) (x2 (ix2 p q)) w3 b4 w5 b6 w7 b8 w9 b10 q := by
  show Ideal.tanh (x2 (ix2 p q) * k0_pay3 x0 x1 w3 b4 (ix2 p q) + k0_pay4 x0 x1 w5 b6 (ix2 p q) * k0_pay6 x0 x1 w9 b10 (ix2 p q))
      * k0_pay5 x0 x1 w7 b8 (ix2 p q) = _
  rw [forget_apply, input_apply, select_apply, candidate_apply]
  rfl

end Cert.KernelIdeal.BlockValue

end
-- ==== Proof.ArrayValue.lean ====
/-
  From blocks to the array: after the run the kernel's result array is `cell` of the argument arrays.

  The grid has 16 points. At point `t` the windows of `x`, `h`, `c` and of the result hold rows `256 t … 256 t + 255`
  (block index `(t, 0)`), and the windows of the four weight matrices and the four biases hold the whole arrays
  (block index `0` on every axis): these relations between the printed index maps are decided once over the grid
  (`idx_facts`). So row `p` of the `x` block at `t` is row `256 t + p` of the array, likewise `h` and `c`, and what
  point `t` writes back, the body's stored value (`BlockValue.payload_apply`), is block `t` of `cell` (`flushed_eq`).
  The 16 blocks of 256 rows cover the 4096 rows, the block of row `r` being `r / 256` (`cover`), so the array ends
  holding `cell` of the arrays the region finds (`final`). Those are the arguments themselves: `c` and the biases
  directly, `x`, `h` and the weights through a change of float format, which is the identity on the extended reals
  (`V_main_v0` … `V_main_v5`).
-/
import proofs.«130139_j56642028699866_1_alg».proof.Proof.Gen.KernelIdeal.Value
import proofs.«130139_j56642028699866_1_alg».proof.Proof.BlockValue
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.LstmCell

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The printed index maps over the 16 grid points: `x`, `h`, `c` move down the rows with the result, the weights and
    biases stay at block 0, and every block sits at column block 0. -/
theorem idx_facts : ∀ t : Fin cfg0.N,
      win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 2) = 0 ∧ win0_9.index t (1 : Fin 2) = 0 ∧ win0_10.index t (0 : Fin 1) = 0
    ∧ win0_11.index t (0 : Fin 2) ≤ 15 ∧ win0_11.index t (1 : Fin 2) = 0 :=
  (by decide +kernel : ∀ t : Fin grid0.N, _)

/-- Every one of the 16 row blocks is some point's. -/
theorem idx_onto : ∀ q0 : Fin 16, ∃ t : Fin cfg0.N, win0_11.index t = ![q0.val, 0] :=
  (by decide +kernel : ∀ q0 : Fin 16, ∃ t : Fin grid0.N, win0_11.index t = ![q0.val, 0])

/-- WHAT POINT `t` WRITES BACK is block `t` of `cell` of the arrays as the region finds them. -/
theorem flushed_eq (c : Dev nD) (t : Fin cfg0.N) :
    (dats m 0 c).flushed 11 t = ((cfg0.win 11).blk t).view.read (Elt Ideal) (cell (V m c main_v0) (V m c main_v1) (V m c main_arg2) (V m c main_v2) (V m c main_arg4) (V m c main_v3) (V m c main_arg6) (V m c main_v4) (V m c main_arg8) (V m c main_v5) (V m c main_arg10)) := by
  rw [Value.flushed11]
  unfold out0_11
  rw [View.canon_unit_zero hz]
  simp only [View.ld_unit_zero (S := S256x1024) hz, View.ld_unit_zero (S := S2048x1024) hz, View.ld_unit_zero (S := S1024) hz1]
  obtain ⟨a0, a0', a1, a1', a2, a2', a3, a3', a4, a5, a5', a6, a7, a7', a8, a9, a9', a10, a11, a11'⟩ := idx_facts t
  funext y
  obtain ⟨p, q, rfl⟩ : ∃ (p : Fin 256) (q : Fin 1024), y = ix2 p q := ⟨y 0, y 1, eq_ix2 y⟩
  refine (BlockValue.payload_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  -- the row of the arrays this block row is
  have hr : win0_11.index t (0 : Fin 2) * 256 + p.val < 4096 := by have := p.isLt; omega
  have ei : ((cfg0.win 11).blk t).view.emb (ix2 p q) = ix2 (⟨win0_11.index t (0 : Fin 2) * 256 + p.val, hr⟩ : Fin 4096) q := by
    funext a; apply Fin.ext
    match a with
    | ⟨0, _⟩ => show win0_11.index t (0 : Fin 2) * 256 + 1 * p.val = win0_11.index t (0 : Fin 2) * 256 + p.val; omega
    | ⟨1, _⟩ => show win0_11.index t (1 : Fin 2) * 1024 + 1 * q.val = q.val; omega
  have e0 : (fun k : Fin 1024 => iblk m c 0 t (ix2 p k)) = fun k => V m c main_v0 (ix2 (⟨win0_11.index t (0 : Fin 2) * 256 + p.val, hr⟩ : Fin 4096) k) := by
    funext k
    show V m c main_v0 (((cfg0.win 0).blk t).view.emb (ix2 p k)) = _
    refine congrArg (V m c main_v0) (funext fun a => Fin.ext ?_)
    match a with
    | ⟨0, _⟩ => show win0_0.index t (0 : Fin 2) * 256 + 1 * p.val = win0_11.index t (0 : Fin 2) * 256 + p.val; omega
    | ⟨1, _⟩ => show win0_0.index t (1 : Fin 2) * 1024 + 1 * k.val = k.val; omega
  have e1 : (fun k : Fin 1024 => iblk m c 1 t (ix2 p k)) = fun k => V m c main_v1 (ix2 (⟨win0_11.index t (0 : Fin 2) * 256 + p.val, hr⟩ : Fin 4096) k) := by
    funext k
    show V m c main_v1 (((cfg0.win 1).blk t).view.emb (ix2 p k)) = _
    refine congrArg (V m c main_v1) (funext fun a => Fin.ext ?_)
    match a with
    | ⟨0, _⟩ => show win0_1.index t (0 : Fin 2) * 256 + 1 * p.val = win0_11.index t (0 : Fin 2) * 256 + p.val; omega
    | ⟨1, _⟩ => show win0_1.index t (1 : Fin 2) * 1024 + 1 * k.val = k.val; omega
  have e2 : iblk m c 2 t (ix2 p q) = V m c main_arg2 (ix2 (⟨win0_11.index t (0 : Fin 2) * 256 + p.val, hr⟩ : Fin 4096) q) := by
    show V m c main_arg2 (((cfg0.win 2).blk t).view.emb (ix2 p q)) = _
    refine congrArg (V m c main_arg2) (funext fun a => Fin.ext ?_)
    match a with
    | ⟨0, _⟩ => show win0_2.index t (0 : Fin 2) * 256 + 1 * p.val = win0_11.index t (0 : Fin 2) * 256 + p.val; omega
    | ⟨1, _⟩ => show win0_2.index t (1 : Fin 2) * 1024 + 1 * q.val = q.val; omega
  have e3 : iblk m c 3 t = V m c main_v2 := by
    funext z
    show V m c main_v2 (((cfg0.win 3).blk t).view.emb z) = _
    refine congrArg (V m c main_v2) (funext fun a => Fin.ext ?_)
    match a with
    | ⟨0, _⟩ => show win0_3.index t (0 : Fin 2) * 2048 + 1 * (z 0).val = (z 0).val; omega
    | ⟨1, _⟩ => show win0_3.index t (1 : Fin 2) * 1024 + 1 * (z 1).val = (z 1).val; omega
  have e4 : iblk m c 4 t = V m c main_arg4 := by
    funext z
    show V m c main_arg4 (((cfg0.win 4).blk t).view.emb z) = _
    refine congrArg (V m c main_arg4) (funext fun a => Fin.ext ?_)
    match a with
    | ⟨0, _⟩ => show win0_4.index t (0 : Fin 1) * 1024 + 1 * (z 0).val = (z 0).val; omega
  have e5 : iblk m c 5 t = V m c main_v3 := by
    funext z
    show V m c main_v3 (((cfg0.win 5).blk t).view.emb z) = _
    refine congrArg (V m c main_v3) (funext fun a => Fin.ext ?_)
    match a with
    | ⟨0, _⟩ => show win0_5.index t (0 : Fin 2) * 2048 + 1 * (z 0).val = (z 0).val; omega
    | ⟨1, _⟩ => show win0_5.index t (1 : Fin 2) * 1024 + 1 * (z 1).val = (z 1).val; omega
  have e6 : iblk m c 6 t = V m c main_arg6 := by
    funext z
    show V m c main_arg6 (((cfg0.win 6).blk t).view.emb z) = _
    refine congrArg (V m c main_arg6) (funext fun a => Fin.ext ?_)
    match a with
    | ⟨0, _⟩ => show win0_6.index t (0 : Fin 1) * 1024 + 1 * (z 0).val = (z 0).val; omega
  have e7 : iblk m c 7 t = V m c main_v4 := by
    funext z
    show V m c main_v4 (((cfg0.win 7).blk t).view.emb z) = _
    refine congrArg (V m c main_v4) (funext fun a => Fin.ext ?_)
    match a with
    | ⟨0, _⟩ => show win0_7.index t (0 : Fin 2) * 2048 + 1 * (z 0).val = (z 0).val; omega
    | ⟨1, _⟩ => show win0_7.index t (1 : Fin 2) * 1024 + 1 * (z 1).val = (z 1).val; omega
  have e8 : iblk m c 8 t = V m c main_arg8 := by
    funext z
    show V m c main_arg8 (((cfg0.win 8).blk t).view.emb z) = _
    refine congrArg (V m c main_arg8) (funext fun a => Fin.ext ?_)
    match a with
    | ⟨0, _⟩ => show win0_8.index t (0 : Fin 1) * 1024 + 1 * (z 0).val = (z 0).val; omega
  have e9 : iblk m c 9 t = V m c main_v5 := by
    funext z
    show V m c main_v5 (((cfg0.win 9).blk t).view.emb z) = _
    refine congrArg (V m c main_v5) (funext fun a => Fin.ext ?_)
    match a with
    | ⟨0, _⟩ => show win0_9.index t (0 : Fin 2) * 2048 + 1 * (z 0).val = (z 0).val; omega
    | ⟨1, _⟩ => show win0_9.index t (1 : Fin 2) * 1024 + 1 * (z 1).val = (z 1).val; omega
  have e10 : iblk m c 10 t = V m c main_arg10 := by
    funext z
    show V m c main_arg10 (((cfg0.win 10).blk t).view.emb z) = _
    refine congrArg (V m c main_arg10) (funext fun a => Fin.ext ?_)
    match a with
    | ⟨0, _⟩ => show win0_10.index t (0 : Fin 1) * 1024 + 1 * (z 0).val = (z 0).val; omega
  show _ = cell (V m c main_v0) (V m c main_v1) (V m c main_arg2) (V m c main_v2) (V m c main_arg4) (V m c main_v3) (V m c main_arg6) (V m c main_v4) (V m c main_arg8) (V m c main_v5) (V m c main_arg10) (((cfg0.win 11).blk t).view.emb (ix2 p q))
  rw [ei, e0, e1, e2, e3, e4, e5, e6, e7, e8, e9, e10]
  rfl

/-- An index of the array is in point `t`'s block iff each coordinate is in the block's range on its axis. -/
theorem mem_blk (t : Fin cfg0.N) (i : S4096x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v6).slice (win0_11.rect t)).set ↔ _
  rw [View.set_slice_whole, Rect.mem_set_unit]
  exact Iff.rfl

/-- The blocks cover the array: row `r` is in the block of point `r / 256`. -/
theorem cover (i : S4096x1024.Idx) : ∃ t : Fin cfg0.N, (cfg0.win 11).flush t = true ∧ i ∈ ((cfg0.win 11).blk t).view.set := by
  have hi0 : (i 0).val < 4096 := (i 0).isLt
  have hi1 : (i 1).val < 1024 := (i 1).isLt
  obtain ⟨t, ht⟩ := idx_onto ⟨(i 0).val / 256, by omega⟩
  have q0 : win0_11.index t (0 : Fin 2) = (i 0).val / 256 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

/-- THE ARRAY after the run: `cell` of the arrays as the region finds them. -/
theorem final (c : Dev nD) : (dats m 0 c).arrAt 11 cfg0.N = cell (V m c main_v0) (V m c main_v1) (V m c main_arg2) (V m c main_v2) (V m c main_arg4) (V m c main_v3) (V m c main_arg6) (V m c main_v4) (V m c main_arg8) (V m c main_v5) (V m c main_arg10) :=
  (dats m 0 c).arrAt_eq_of_cover 11 _ (fun t _ => flushed_eq m c t) cover

/-! ## The arrays the region finds are the arguments -/

theorem V_main_v0 (c : Dev nD) : (V m c main_v0 : S4096x1024.Idx → EReal) = m ((c : Thread nD τ).loc main_arg0) := by
  dsimp only [Gen.V, Gen.hostOps0]; after_results; rfl
theorem V_main_v1 (c : Dev nD) : (V m c main_v1 : S4096x1024.Idx → EReal) = m ((c : Thread nD τ).loc main_arg1) := by
  dsimp only [Gen.V, Gen.hostOps0]; after_results; rfl
theorem V_main_v2 (c : Dev nD) : (V m c main_v2 : S2048x1024.Idx → EReal) = m ((c : Thread nD τ).loc main_arg3) := by
  dsimp only [Gen.V, Gen.hostOps0]; after_results; rfl
theorem V_main_v3 (c : Dev nD) : (V m c main_v3 : S2048x1024.Idx → EReal) = m ((c : Thread nD τ).loc main_arg5) := by
  dsimp only [Gen.V, Gen.hostOps0]; after_results; rfl
theorem V_main_v4 (c : Dev nD) : (V m c main_v4 : S2048x1024.Idx → EReal) = m ((c : Thread nD τ).loc main_arg7) := by
  dsimp only [Gen.V, Gen.hostOps0]; after_results; rfl
theorem V_main_v5 (c : Dev nD) : (V m c main_v5 : S2048x1024.Idx → EReal) = m ((c : Thread nD τ).loc main_arg9) := by
  dsimp only [Gen.V, Gen.hostOps0]; after_results; rfl

/-- `cell` of the arrays the region finds is `cell` of the arguments. -/
theorem cell_V (c : Dev nD) :
    cell (V m c main_v0) (V m c main_v1) (V m c main_arg2) (V m c main_v2) (V m c main_arg4) (V m c main_v3) (V m c main_arg6) (V m c main_v4) (V m c main_arg8) (V m c main_v5) (V m c main_arg10) = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [V_main_v0, V_main_v1, V_main_v2, V_main_v3, V_main_v4, V_main_v5, V_main_arg2 (F := Ideal) m c, V_main_arg4 (F := Ideal) m c,
    V_main_arg6 (F := Ideal) m c, V_main_arg8 (F := Ideal) m c, V_main_arg10 (F := Ideal) m c]

/-! ## The run, read -/

/-- The kernel's run: the result array ends at `cell` of the arguments, the arguments unchanged. -/
theorem run : θ_run defs (onTc (τ := τ) (main (F := Ideal))) ⟨m, fun _ => 0, ρ⟩ fun r => ∀ c : Dev nD,
      r.2.mem ((c : Thread nD τ).loc main_v6) = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (cell_V m c)), (h c).2⟩)
    (Value.run_blocks m ρ)

end Cert.KernelIdeal.ArrayValue

end
-- ==== Proof.RefValue.lean ====
/-
  The reference computes `cell` of its arguments.

  Its @main joins `x` and `h` along the columns once, and for each gate takes the product of the joined array with
  the gate's weights, adds the bias (first laid as a 1 × 1024 row, then repeated down the 4096 rows), and applies
  `1 / (1 + exp (-z))` (three gates) or `tanh` (the fourth); the result is `tanh (c · f + i · p) · s`. Read at an index
  `(r, j)`: the product is the sum over the 2048 joined columns (the generated read of the stage), the joined array at
  `(r, k)` is `x`'s or `h`'s entry by the side of 1024 that `k` falls on, the bias is `b j`, and the quotient is the
  logistic function. The four gates' pre-activations are one term at four pairs of arguments, so one lemma reads
  them all (`lin_apply`).
-/
import proofs.«130139_j56642028699866_1_alg».proof.Proof.Gen.ReferenceIdeal.Read
import proofs.«130139_j56642028699866_1_alg».proof.Proof.Cell

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.LstmCell

/-- The joined array at `(r, k)`. -/
theorem joined_apply (x0 x1 : (⟨S4096x1024, .f32⟩ : BufTy).Contents (Elt Ideal)) (r : Fin 4096) (k : Fin 2048) :
    val_main_v0 (F := Ideal) x0 x1 (ix2 r k) = joinedRow (fun k => x0 (ix2 r k)) (fun k => x1 (ix2 r k)) k := by
  unfold val_main_v0 joinedRow
  exact concat_cols_apply 4096 x0 x1 concatenates_S4096x1024_S4096x1024_S4096x2048_d1 r k

/-- A gate's pre-activation at `(r, j)`: the joined row `r` times column `j` of the weights, plus `b j`. -/
theorem lin_apply (x0 x1 : (⟨S4096x1024, .f32⟩ : BufTy).Contents (Elt Ideal)) (W : (⟨S2048x1024, .f32⟩ : BufTy).Contents (Elt Ideal)) (b : (⟨S1024, .f32⟩ : BufTy).Contents (Elt Ideal)) (r : Fin 4096) (j : Fin 1024) :
    val_main_v4 (F := Ideal) x0 x1 W b (ix2 r j)
      = lin (fun k => x0 (ix2 r k)) (fun k => x1 (ix2 r k)) W b j := by
  rw [val_main_v4_apply, val_main_v1_apply, val_main_v3_apply, val_main_v2_apply]
  have el : ∀ k : Fin 2048, lidx_main_v1 (ix2 r j) k = ix2 r k := fun k =>
    funext fun a => match a with | ⟨0, _⟩ => rfl | ⟨1, _⟩ => rfl
  have er : ∀ k : Fin 2048, ridx_main_v1 (ix2 r j) k = ix2 k j := fun k =>
    funext fun a => match a with | ⟨0, _⟩ => rfl | ⟨1, _⟩ => rfl
  have eb : idx_main_v2 (idx_main_v3 (ix2 r j)) = ix1 j := funext fun a => match a with | ⟨0, _⟩ => rfl
  rw [eb]
  unfold lin
  exact congrArg (· + b (ix1 j)) (Finset.sum_congr rfl fun k _ => by rw [el, er, joined_apply])

/-- The reference's spelling of the logistic function, `1 / (1 + exp (-z))` with both ones broadcast scalars. -/
theorem sigma_apply (z : (⟨S4096x1024, .f32⟩ : BufTy).Contents (Elt Ideal)) (i : S4096x1024.Idx) :
    Host.divf (broadcastInDim S4096x1024 ![] bcast_S_S4096x1024 (constant (F := Ideal) S_ .f32 0x3F800000#32)) (addf (broadcastInDim S4096x1024 ![] bcast_S_S4096x1024 (constant (F := Ideal) S_ .f32 0x3F800000#32)) (Host.exp (Host.negf z))) i = Ideal.logistic (z i) :=
  logistic_spelt (z i)

/-- THE REFERENCE'S RESULT is `cell` of its eleven arguments. -/
theorem result_eq (x0 x1 x2 : (⟨S4096x1024, .f32⟩ : BufTy).Contents (Elt Ideal)) (x3 : (⟨S2048x1024, .f32⟩ : BufTy).Contents (Elt Ideal)) (x4 : (⟨S1024, .f32⟩ : BufTy).Contents (Elt Ideal))
    (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal))
    (x9 : (⟨S2048x1024, .f32⟩ : BufTy).Contents (Elt Ideal)) (x10 : (⟨S1024, .f32⟩ : BufTy).Contents (Elt Ideal)) :
    val_main_v40 (F := Ideal) x0 x1 x2 x3 x4 x5 x6 x7 x8 x9 x10 = cell x0 x1 x2 x3 x4 x5 x6 x7 x8 x9 x10 := by
  funext i
  obtain ⟨r, j, rfl⟩ : ∃ (r : Fin 4096) (j : Fin 1024), i = ix2 r j := ⟨i 0, i 1, eq_ix2 i⟩
  have hf : val_main_v10 (F := Ideal) x0 x1 x3 x4 (ix2 r j)
      = Ideal.logistic (lin (fun k => x0 (ix2 r k)) (fun k => x1 (ix2 r k)) x3 x4 j) :=
    (sigma_apply (val_main_v4 (F := Ideal) x0 x1 x3 x4) (ix2 r j)).trans (congrArg Ideal.logistic (lin_apply x0 x1 x3 x4 r j))
  have hi : val_main_v20 (F := Ideal) x0 x1 x5 x6 (ix2 r j)
      = Ideal.logistic (lin (fun k => x0 (ix2 r k)) (fun k => x1 (ix2 r k)) x5 x6 j) :=
    (sigma_apply (val_main_v4 (F := Ideal) x0 x1 x5 x6) (ix2 r j)).trans (congrArg Ideal.logistic (lin_apply x0 x1 x5 x6 r j))
  have hs : val_main_v30 (F := Ideal) x0 x1 x7 x8 (ix2 r j)
      = Ideal.logistic (lin (fun k => x0 (ix2 r k)) (fun k => x1 (ix2 r k)) x7 x8 j) :=
    (sigma_apply (val_main_v4 (F := Ideal) x0 x1 x7 x8) (ix2 r j)).trans (congrArg Ideal.logistic (lin_apply x0 x1 x7 x8 r j))
  have hp : val_main_v35 (F := Ideal) x0 x1 x9 x10 (ix2 r j)
      = Ideal.tanh (lin (fun k => x0 (ix2 r k)) (fun k => x1 (ix2 r k)) x9 x10 j) :=
    congrArg Ideal.tanh (lin_apply x0 x1 x9 x10 r j)
  show Ideal.tanh (x2 (ix2 r j) * val_main_v10 (F := Ideal) x0 x1 x3 x4 (ix2 r j)
        + val_main_v20 (F := Ideal) x0 x1 x5 x6 (ix2 r j) * val_main_v35 (F := Ideal) x0 x1 x9 x10 (ix2 r j))
      * val_main_v30 (F := Ideal) x0 x1 x7 x8 (ix2 r j) = _
  rw [hf, hi, hs, hp]
  rfl

end Cert.ReferenceIdeal.RefValue

end
-- ==== Proof.lean ====
/-
  One step of an LSTM cell: a fused kernel against the plain formula.

  Both programs take `x`, `h`, `c` (4096 × 1024), four weight matrices (2048 × 1024) and four biases (1024), and return
  the new hidden state `tanh (c · f + i · p) · s`, where with `z_g = [x | h] · W_g + b_g` the gates are
  `f = σ (z_f)`, `i = σ (z_i)`, `s = σ (z_s)`, `p = tanh (z_p)` and `σ z = 1 / (1 + e^(-z))`.
  The kernel walks the rows in 16 blocks of 256, keeps the whole weight matrices and biases resident, narrows
  `x`, `h` and the weights to a 16-bit float format before the products, and applies `σ` as one operation; the
  reference joins the whole arrays, multiplies in the wide format and spells `σ` as the quotient. On the extended
  reals a change of float format is the identity, a product into a zero accumulator and the plain product are the
  same sum over the 2048 joined columns, and the quotient `1 / (1 + exp (-z))` is the logistic function at every
  extended real, the infinities included. So both results are the one function `LstmCell.cell` of the arguments
  (Proof/Cell.lean), entry by entry: no law that needs finite inputs is used, and the precondition is never opened.

  Proof/BlockValue.lean reads the kernel body's stored value at an index of a block; Proof/ArrayValue.lean puts the 16
  blocks together into the result array; Proof/RefValue.lean reads the reference's last stage. The two word-level and
  idealized kernels' runs without fault are the generated frames; the reference's is its generated run with the result
  dropped; the idealization rewrote nothing, so there is nothing to preserve.
-/
import proofs.«130139_j56642028699866_1_alg».proof.Defs
import proofs.«130139_j56642028699866_1_alg».proof.Proof.Gen.Kernel
import proofs.«130139_j56642028699866_1_alg».proof.Proof.Gen.Kernel.Skeleton
import proofs.«130139_j56642028699866_1_alg».proof.Proof.Gen.Kernel.Launch
import proofs.«130139_j56642028699866_1_alg».proof.Proof.Gen.Kernel.Points
import proofs.«130139_j56642028699866_1_alg».proof.Proof.Gen.Kernel.Frame
import proofs.«130139_j56642028699866_1_alg».proof.Proof.Gen.KernelIdeal
import proofs.«130139_j56642028699866_1_alg».proof.Proof.Gen.KernelIdeal.Skeleton
import proofs.«130139_j56642028699866_1_alg».proof.Proof.Gen.KernelIdeal.Launch
import proofs.«130139_j56642028699866_1_alg».proof.Proof.Gen.KernelIdeal.Points
import proofs.«130139_j56642028699866_1_alg».proof.Proof.Gen.KernelIdeal.Frame
import proofs.«130139_j56642028699866_1_alg».proof.Proof.Gen.ReferenceIdeal
import proofs.«130139_j56642028699866_1_alg».proof.Proof.Gen.Pre_finite_inputs
import proofs.«130139_j56642028699866_1_alg».proof.Proof.Gen.KernelIdeal.Value
import proofs.«130139_j56642028699866_1_alg».proof.Proof.Gen.ReferenceIdeal.Run
import proofs.«130139_j56642028699866_1_alg».proof.Proof.Gen.ReferenceIdeal.Read
import proofs.«130139_j56642028699866_1_alg».proof.Proof.ArrayValue
import proofs.«130139_j56642028699866_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs without fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals, from memories that agree on the eleven arguments, the kernel's result array and the
    reference's both end at `cell` of those arguments. -/
theorem algebraic : Cert.algebraic_KernelIdeal_ReferenceIdeal := by
  intro m ρ m' ρ' _ hagree
  refine ⟨fun c => Cert.LstmCell.cell
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v40_eq, Cert.ReferenceIdeal.RefValue.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
